-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2500 : Shape := ⟨2, ![8192, 2500]⟩
abbrev S3310x3310 : Shape := ⟨2, ![3310, 3310]⟩
abbrev S3310 : Shape := ⟨1, ![3310]⟩
abbrev S_ : Shape := ⟨0, ![]⟩

class Facts : Prop where
  bcast_S_S8192x2500 : S_.BroadcastsInDim S8192x2500 (![] : Fin 0 → Fin S8192x2500.rank)
  reducesTo_S8192x2500_S_d0_1 : S8192x2500.ReducesTo [0, 1] S_
  h_S_ : 0 < S_.numel
  bcast_S_S3310x3310 : S_.BroadcastsInDim S3310x3310 (![] : Fin 0 → Fin S3310x3310.rank)
  reducesTo_S3310x3310_S_d0_1 : S3310x3310.ReducesTo [0, 1] S_
  bcast_S_S3310 : S_.BroadcastsInDim S3310 (![] : Fin 0 → Fin S3310.rank)
  reducesTo_S3310_S_d0 : S3310.ReducesTo [0] S_

variable [Facts]

def fn_part1 {F : FTy → Type} [FloatOps F] (main_v13 : IVec S_ 1) (main_v16 : IVec S3310x3310 1) : IVec S_ 1 :=
  let main_c_5 : IVec S_ 1 := constantI S_ 1 1#1
  let main_v17 : IVec S_ 1 := (fun x v => Host.reduce IntOp.andi x v reducesTo_S3310x3310_S_d0_1 h_S_) main_v16 main_c_5
  let main_v18 : IVec S_ 1 := andi main_v13 main_v17
  main_v18

def fn {F : FTy → Type} [FloatOps F] (main_arg0 : FVec F S8192x2500 .f32) (main_arg1 : FVec F S3310x3310 .f32) (main_arg2 : FVec F S3310 .f32) (main_arg3 : FVec F S3310x3310 .f32) : IVec S_ 1 :=
  let main_v0 : FVec F S8192x2500 .f32 := Host.absf main_arg0
  let main_cst : FVec F S_ .f32 := constant S_ .f32 0x7F800000#32
  let main_v1 : FVec F S8192x2500 .f32 := broadcastInDim S8192x2500 ![] bcast_S_S8192x2500 main_cst
  let main_v2 : IVec S8192x2500 1 := cmpf .olt main_v0 main_v1
  let main_c : IVec S_ 1 := constantI S_ 1 1#1
  let main_v3 : IVec S_ 1 := (fun x v => Host.reduce IntOp.andi x v reducesTo_S8192x2500_S_d0_1 h_S_) main_v2 main_c
  let main_v4 : FVec F S3310x3310 .f32 := Host.absf main_arg1
  let main_cst_0 : FVec F S_ .f32 := constant S_ .f32 0x7F800000#32
  let main_v5 : FVec F S3310x3310 .f32 := broadcastInDim S3310x3310 ![] bcast_S_S3310x3310 main_cst_0
  let main_v6 : IVec S3310x3310 1 := cmpf .olt main_v4 main_v5
  let main_c_1 : IVec S_ 1 := constantI S_ 1 1#1
  let main_v7 : IVec S_ 1 := (fun x v => Host.reduce IntOp.andi x v reducesTo_S3310x3310_S_d0_1 h_S_) main_v6 main_c_1
  let main_v8 : IVec S_ 1 := andi main_v3 main_v7
  let main_v9 : FVec F S3310 .f32 := Host.absf main_arg2
  let main_cst_2 : FVec F S_ .f32 := constant S_ .f32 0x7F800000#32
  let main_v10 : FVec F S3310 .f32 := broadcastInDim S3310 ![] bcast_S_S3310 main_cst_2
  let main_v11 : IVec S3310 1 := cmpf .olt main_v9 main_v10
  let main_c_3 : IVec S_ 1 := constantI S_ 1 1#1
  let main_v12 : IVec S_ 1 := (fun x v => Host.reduce IntOp.andi x v reducesTo_S3310_S_d0 h_S_) main_v11 main_c_3
  let main_v13 : IVec S_ 1 := andi main_v8 main_v12
  let main_v14 : FVec F S3310x3310 .f32 := Host.absf main_arg3
  let main_cst_4 : FVec F S_ .f32 := constant S_ .f32 0x7F800000#32
  let main_v15 : FVec F S3310x3310 .f32 := broadcastInDim S3310x3310 ![] bcast_S_S3310x3310 main_cst_4
  let main_v16 : IVec S3310x3310 1 := cmpf .olt main_v14 main_v15
  fn_part1 (F := F) main_v13 main_v16
-- ==== Kernel.lean ====
abbrev S8192x2500 : Shape := ⟨2, ![8192, 2500]⟩
abbrev S3310x3310 : Shape := ⟨2, ![3310, 3310]⟩
abbrev S3310 : Shape := ⟨1, ![3310]⟩
abbrev S1x3310 : Shape := ⟨2, ![1, 3310]⟩
abbrev S8192x3310 : Shape := ⟨2, ![8192, 3310]⟩
abbrev S128x2500 : Shape := ⟨2, ![128, 2500]⟩
abbrev S128x3310 : Shape := ⟨2, ![128, 3310]⟩
abbrev S2500x3310 : Shape := ⟨2, ![2500, 3310]⟩

abbrev nBuf : Space → Nat
  | .hbm => 8
  | .vmem => 6
  | .smem => 0
  | _ => 0

abbrev bufTy : (tb : Table) → Fin (tcTables nBuf tb) → BufTy
  | .hbm, ⟨0, _⟩ => ⟨S8192x2500, .f32⟩
  | .hbm, ⟨1, _⟩ => ⟨S3310x3310, .f32⟩
  | .hbm, ⟨2, _⟩ => ⟨S3310, .f32⟩
  | .hbm, ⟨3, _⟩ => ⟨S3310x3310, .f32⟩
  | .hbm, ⟨4, _⟩ => ⟨S3310x3310, .f32⟩
  | .hbm, ⟨5, _⟩ => ⟨S3310x3310, .bf16⟩
  | .hbm, ⟨6, _⟩ => ⟨S1x3310, .f32⟩
  | .hbm, ⟨7, _⟩ => ⟨S8192x3310, .f32⟩
  | .local _ .vmem, ⟨0, _⟩ => ⟨S128x2500, .f32⟩
  | .local _ .vmem, ⟨1, _⟩ => ⟨S128x2500, .f32⟩
  | .local _ .vmem, ⟨2, _⟩ => ⟨S3310x3310, .bf16⟩
  | .local _ .vmem, ⟨3, _⟩ => ⟨S1x3310, .f32⟩
  | .local _ .vmem, ⟨4, _⟩ => ⟨S128x3310, .f32⟩
  | .local _ .vmem, ⟨5, _⟩ => ⟨S128x3310, .f32⟩
  | _, _ => ⟨S8192x2500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3310x3310 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3310 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x3310 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S3310_S1x3310 : S3310.ShapeCasts S1x3310
  inb_S1x3310_S1x3310_0_0 : ∀ a, (![0, 0] : Fin 2 → Nat) a + S1x3310.size a ≤ S1x3310.size a
  h_S1x3310 : 0 < S1x3310.numel
  shapeCasts_S1x3310_S1x3310 : S1x3310.ShapeCasts S1x3310
  inb_S128x2500_S128x2500_0_0 : ∀ a, (![0, 0] : Fin 2 → Nat) a + S128x2500.size a ≤ S128x2500.size a
  h_S128x2500 : 0 < S128x2500.numel
  inb_S3310x3310_S2500x3310_0_0 : ∀ a, (![0, 0] : Fin 2 → Nat) a + S2500x3310.size a ≤ S3310x3310.size a
  h_S2500x3310 : 0 < S2500x3310.numel
  shapeCasts_S2500x3310_S2500x3310 : S2500x3310.ShapeCasts S2500x3310
  broadcasts_S1x3310_S128x3310 : S1x3310.Broadcasts S128x3310
  inb_S3310x3310_S3310x3310_0_0 : ∀ a, (![0, 0] : Fin 2 → Nat) a + S3310x3310.size a ≤ S3310x3310.size a
  h_S3310x3310 : 0 < S3310x3310.numel
  shapeCasts_S3310x3310_S3310x3310 : S3310x3310.ShapeCasts S3310x3310
  inb_S128x3310_S128x3310_0_0 : ∀ a, (![0, 0] : Fin 2 → Nat) a + S128x3310.size a ≤ S128x3310.size a
  h_S128x3310 : 0 < S128x3310.numel
  dot_S128x2500_S2500x3310_S128x3310_1_0_0_1_n_n_wf : DotDims.WF S128x2500 S2500x3310 S128x3310 [1] [0] [0] [1] [] []
  dot_S128x3310_S3310x3310_S128x3310_1_0_0_1_n_n_wf : DotDims.WF S128x3310 S3310x3310 S128x3310 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2500.size a ≤ S8192x2500.size a
  hwx0_0 : ∀ i : grid0.Coords, EltTy.bits .f32 = 32 ∨ (Rect.block (s := S8192x2500) S128x2500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3310x3310.size a ≤ S3310x3310.size a
  hwx0_1 : ∀ i : grid0.Coords, EltTy.bits .bf16 = 32 ∨ (Rect.block (s := S3310x3310) S3310x3310.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3310.size a ≤ S1x3310.size a
  hwx0_2 : ∀ i : grid0.Coords, EltTy.bits .f32 = 32 ∨ (Rect.block (s := S1x3310) S1x3310.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x3310.size a ≤ S8192x3310.size a
  hwx0_3 : ∀ i : grid0.Coords, EltTy.bits .f32 = 32 ∨ (Rect.block (s := S8192x3310) S128x3310.size (cc0_transform_3 i) (hinb0_3 i)).WholeWords (EltTy.packing .f32)

variable [Facts₀]

def dot_S128x2500_S2500x3310_S128x3310_1_0_0_1_n_n : DotDims S128x2500 S2500x3310 S128x3310 where
  lhsContracting := [1]
  rhsContracting := [0]
  lhsNonContracting := [0]
  rhsNonContracting := [1]
  lhsBatch := []
  rhsBatch := []
  wf := dot_S128x2500_S2500x3310_S128x3310_1_0_0_1_n_n_wf
def dot_S128x3310_S3310x3310_S128x3310_1_0_0_1_n_n : DotDims S128x3310 S3310x3310 S128x3310 where
  lhsContracting := [1]
  rhsContracting := [0]
  lhsNonContracting := [0]
  rhsNonContracting := [1]
  lhsBatch := []
  rhsBatch := []
  wf := dot_S128x3310_S3310x3310_S128x3310_1_0_0_1_n_n_wf

abbrev win0_0 : Pipeline.Window sig grid0 :=
  Pipeline.Window.ofSpec (Memref.whole main_arg0) S128x2500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3310x3310.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3310.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x3310.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2500 : Shape := ⟨2, ![8192, 2500]⟩
abbrev S3310x3310 : Shape := ⟨2, ![3310, 3310]⟩
abbrev S3310 : Shape := ⟨1, ![3310]⟩
abbrev S_ : Shape := ⟨0, ![]⟩
abbrev S8192x810 : Shape := ⟨2, ![8192, 810]⟩
abbrev S8192x3310 : Shape := ⟨2, ![8192, 3310]⟩
abbrev S1x3310 : Shape := ⟨2, ![1, 3310]⟩

abbrev nBuf : Space → Nat
  | .hbm => 33
  | .vmem => 0
  | .smem => 0
  | _ => 0

abbrev bufTy : (tb : Table) → Fin (tcTables nBuf tb) → BufTy
  | .hbm, ⟨0, _⟩ => ⟨S8192x2500, .f32⟩
  | .hbm, ⟨1, _⟩ => ⟨S3310x3310, .f32⟩
  | .hbm, ⟨2, _⟩ => ⟨S3310, .f32⟩
  | .hbm, ⟨3, _⟩ => ⟨S3310x3310, .f32⟩
  | .hbm, ⟨4, _⟩ => ⟨S3310x3310, .f32⟩
  | .hbm, ⟨5, _⟩ => ⟨S_, .f32⟩
  | .hbm, ⟨6, _⟩ => ⟨S8192x810, .f32⟩
  | .hbm, ⟨7, _⟩ => ⟨S8192x3310, .f32⟩
  | .hbm, ⟨8, _⟩ => ⟨S8192x3310, .f32⟩
  | .hbm, ⟨9, _⟩ => ⟨S1x3310, .f32⟩
  | .hbm, ⟨10, _⟩ => ⟨S8192x3310, .f32⟩
  | .hbm, ⟨11, _⟩ => ⟨S8192x3310, .f32⟩
  | .hbm, ⟨12, _⟩ => ⟨S_, .f32⟩
  | .hbm, ⟨13, _⟩ => ⟨S8192x3310, .f32⟩
  | .hbm, ⟨14, _⟩ => ⟨S8192x3310, .f32⟩
  | .hbm, ⟨15, _⟩ => ⟨S8192x3310, .f32⟩
  | .hbm, ⟨16, _⟩ => ⟨S1x3310, .f32⟩
  | .hbm, ⟨17, _⟩ => ⟨S8192x3310, .f32⟩
  | .hbm, ⟨18, _⟩ => ⟨S8192x3310, .f32⟩
  | .hbm, ⟨19, _⟩ => ⟨S_, .f32⟩
  | .hbm, ⟨20, _⟩ => ⟨S8192x3310, .f32⟩
  | .hbm, ⟨21, _⟩ => ⟨S8192x3310, .f32⟩
  | .hbm, ⟨22, _⟩ => ⟨S8192x3310, .f32⟩
  | .hbm, ⟨23, _⟩ => ⟨S1x3310, .f32⟩
  | .hbm, ⟨24, _⟩ => ⟨S8192x3310, .f32⟩
  | .hbm, ⟨25, _⟩ => ⟨S8192x3310, .f32⟩
  | .hbm, ⟨26, _⟩ => ⟨S_, .f32⟩
  | .hbm, ⟨27, _⟩ => ⟨S8192x3310, .f32⟩
  | .hbm, ⟨28, _⟩ => ⟨S8192x3310, .f32⟩
  | .hbm, ⟨29, _⟩ => ⟨S8192x3310, .f32⟩
  | .hbm, ⟨30, _⟩ => ⟨S1x3310, .f32⟩
  | .hbm, ⟨31, _⟩ => ⟨S8192x3310, .f32⟩
  | .hbm, ⟨32, _⟩ => ⟨S8192x3310, .f32⟩
  | _, _ => ⟨S8192x2500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call1_cst : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call2_cst : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S8192x810 : S_.BroadcastsInDim S8192x810 (![] : Fin 0 → Fin S8192x810.rank)
  concatenates_S8192x2500_S8192x810_S8192x3310_d1 : Shape.Concatenates [S8192x2500, S8192x810] S8192x3310 1
  bcast_S3310_S1x3310_1 : S3310.BroadcastsInDim S1x3310 (![1] : Fin 1 → Fin S1x3310.rank)
  bcast_S1x3310_S8192x3310_0_1 : S1x3310.BroadcastsInDim S8192x3310 (![0, 1] : Fin 2 → Fin S8192x3310.rank)
  bcast_S_S8192x3310 : S_.BroadcastsInDim S8192x3310 (![] : Fin 0 → Fin S8192x3310.rank)
  dot_S8192x3310_S3310x3310_S8192x3310_1_0_0_1_n_n_wf : DotDims.WF S8192x3310 S3310x3310 S8192x3310 [1] [0] [0] [1] [] []

variable [Facts₀]

def dot_S8192x3310_S3310x3310_S8192x3310_1_0_0_1_n_n : DotDims S8192x3310 S3310x3310 S8192x3310 where
  lhsContracting := [1]
  rhsContracting := [0]
  lhsNonContracting := [0]
  rhsNonContracting := [1]
  lhsBatch := []
  rhsBatch := []
  wf := dot_S8192x3310_S3310x3310_S8192x3310_1_0_0_1_n_n_wf

class Facts : Prop extends Facts₀ where

variable [Facts]
-- ==== Proof.Spec.lean ====
/-
  The network this certificate is about, one batch row at a time.

  A dense layer sends a row `h` of `K` features to the row whose feature `j` is `∑ k, h k · w k j + b j`; the rectifier
  is `max · 0` feature by feature. The network is four dense layers with the SAME weight `w` (3310 × 3310, the product of
  the stored weight and its presence mask) and the same bias, rectified between layers. Its input row has only 2500
  features: the first layer may either pad the row with 810 zeros and use the whole weight, or use only the weight's first
  2500 rows. The two agree on the extended reals because `0 · y = 0` for EVERY extended real `y` (infinite ones
  included), so the padded features add nothing to the contraction sum: `dense_padRow`. No finiteness is needed anywhere:
  everything else is the same sums and maxima written twice.

  Every output row depends on its own input row only, which is why a tiling of the batch axis computes the same array.
-/
import Idealize.ShloMosaic.Lib.ValueIdx

noncomputable section

open scoped BigOperators

namespace Cert.Mlp

open Idealize.ShloMosaic Idealize.ShloMosaic.ValueIdx

/-- One dense layer on a row `h` of `K` features: feature `j` of the result is `∑ k, h k · w k j + b j`. -/
def dense {K N : Nat} (h : Fin K → EReal) (w : Fin K → Fin N → EReal) (b : Fin N → EReal) : Fin N → EReal :=
  fun j => (∑ k : Fin K, h k * w k j) + b j

/-- The rectifier, feature by feature. -/
def relu {N : Nat} (h : Fin N → EReal) : Fin N → EReal := fun k => max (h k) 0

/-- The first `n` rows of a weight with `N ≥ n` rows. -/
def topRows {n N M : Nat} (hnN : n ≤ N) (w : Fin N → Fin M → EReal) : Fin n → Fin M → EReal :=
  fun k => w (Fin.castLE hnN k)

/-- A row of `n` features followed by zeros, `N` features in all. -/
def padRow {n : Nat} (N : Nat) (x : Fin n → EReal) : Fin N → EReal :=
  fun k => if h : k.val < n then x ⟨k.val, h⟩ else 0

/-- A contraction against a zero-padded row is the contraction against the row itself over the first `n` terms:
    every padded term is `0 · y = 0`. -/
theorem sum_padRow {n N : Nat} (hnN : n ≤ N) (x : Fin n → EReal) (y : Fin N → EReal) :
    ∑ k : Fin N, padRow N x k * y k = ∑ k : Fin n, x k * y (Fin.castLE hnN k) := by
  rw [← Finset.sum_subset (Finset.subset_univ (Finset.univ.map (Fin.castLEEmb hnN)))]
  · rw [Finset.sum_map]
    refine Finset.sum_congr rfl fun k _ => ?_
    show padRow N x (Fin.castLE hnN k) * _ = _
    unfold padRow
    rw [dif_pos (show (Fin.castLE hnN k).val < n from k.isLt)]
    rfl
  · intro k _ hk
    have hlt : ¬ k.val < n := fun h =>
      hk (Finset.mem_map.2 ⟨⟨k.val, h⟩, Finset.mem_univ _, Fin.ext rfl⟩)
    unfold padRow
    rw [dif_neg hlt, zero_mul]

/-- So a dense layer on a zero-padded row is the layer with the weight's first `n` rows on the row itself. -/
theorem dense_padRow {n N M : Nat} (hnN : n ≤ N) (x : Fin n → EReal) (w : Fin N → Fin M → EReal) (b : Fin M → EReal) :
    dense (padRow N x) w b = dense x (topRows hnN w) b := by
  funext j
  unfold dense topRows
  rw [sum_padRow hnN x (fun k => w k j)]

/-- The network on one row of 2500 input features: four dense layers with one 3310 × 3310 weight (the first using its
    first 2500 rows) and one bias, rectified between layers. -/
def mlpRow (x : Fin 2500 → EReal) (w : Fin 3310 → Fin 3310 → EReal) (b : Fin 3310 → EReal) : Fin 3310 → EReal :=
  dense (relu (dense (relu (dense (relu (dense x (topRows (by omega) w) b)) w b)) w b)) w b

/-- The same network with the input row zero-padded to 3310 features and the whole weight in the first layer. -/
theorem mlpRow_eq_padded (x : Fin 2500 → EReal) (w : Fin 3310 → Fin 3310 → EReal) (b : Fin 3310 → EReal) :
    dense (relu (dense (relu (dense (relu (dense (padRow 3310 x) w b)) w b)) w b)) w b = mlpRow x w b := by
  unfold mlpRow
  rw [dense_padRow (by omega) x w b]

/-- The network on the whole batch: row `i 0` of the result is the network on row `i 0` of `X`, the weight the
    entrywise product of `W` and its mask `M`. -/
def mlpArr (X : (⟨2, ![8192, 2500]⟩ : Shape).Idx → EReal) (W M : (⟨2, ![3310, 3310]⟩ : Shape).Idx → EReal)
    (b : (⟨1, ![3310]⟩ : Shape).Idx → EReal) : (⟨2, ![8192, 3310]⟩ : Shape).Idx → EReal :=
  fun i => mlpRow (fun k => X (ix2 (i 0) k)) (fun k j => W (ix2 k j) * M (ix2 k j)) (fun j => b (ix1 j)) (i 1)

end Cert.Mlp

end
-- ==== Proof.RefValue.lean ====
/-
  The reference program computes the network of Spec.lean.

  Read one operation at a time: the reference multiplies the weight by its mask, joins `X` with 810 columns of zeros,
  and four times contracts the current activations with the masked weight along the feature axis and adds the bias
  (broadcast over the batch), taking `max · 0` between layers. At output index `(p, q)` every one of these reads only
  row `p` of the previous stage, so the result at `(p, q)` is feature `q` of the row-wise network on the zero-padded
  row `p` of `X`, which Spec.lean shows equal to the network on the unpadded row with the weight's first 2500 rows.
-/
import proofs.«173126_j82025285419746_1_alg».proof.Proof.Gen.ReferenceIdeal.Read
import proofs.«173126_j82025285419746_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Mlp

variable (x0 : (⟨S8192x2500, .f32⟩ : BufTy).Contents (Elt Ideal)) (x1 x3 : (⟨S3310x3310, .f32⟩ : BufTy).Contents (Elt Ideal))
  (x2 : (⟨S3310, .f32⟩ : BufTy).Contents (Elt Ideal))

/-- The masked weight, entry by entry. -/
abbrev wm : Fin 3310 → Fin 3310 → EReal := fun k j => x1 (ix2 k j) * x3 (ix2 k j)

/-- The bias, entry by entry. -/
abbrev bb : Fin 3310 → EReal := fun j => x2 (ix1 j)

/-! ## Indices -/

/-- A left-operand index map of a contraction, at output `(p, q)` and contraction position `k`, is `(p, k)`. -/
theorem lidx_eq (f : S8192x3310.Idx → Fin 3310 → S8192x3310.Idx) (h0 : ∀ i k, (f i k 0).val = (i 0).val)
    (h1 : ∀ i k, (f i k 1).val = k.val) (p : Fin 8192) (q k : Fin 3310) : f (ix2 p q) k = ix2 p k :=
  funext fun a => Fin.ext (by
    match a with
    | ⟨0, _⟩ => exact h0 _ _
    | ⟨1, _⟩ => exact h1 _ _)

/-- A right-operand index map of a contraction, at output `(p, q)` and contraction position `k`, is `(k, q)`. -/
theorem ridx_eq (f : S8192x3310.Idx → Fin 3310 → S3310x3310.Idx) (h0 : ∀ i k, (f i k 0).val = k.val)
    (h1 : ∀ i k, (f i k 1).val = (i 1).val) (p : Fin 8192) (q k : Fin 3310) : f (ix2 p q) k = ix2 k q :=
  funext fun a => Fin.ext (by
    match a with
    | ⟨0, _⟩ => exact h0 _ _
    | ⟨1, _⟩ => exact h1 _ _)

/-! ## The stages that are not contractions -/

/-- The masked weight at `(k, q)`. -/
theorem weight_at (k q : Fin 3310) : val_main_v0 (F := Ideal) x1 x3 (ix2 k q) = wm x1 x3 k q := rfl

/-- The bias broadcast over the batch, at `(p, q)`, is the bias at `q` — for a broadcast through a unit row whose
    two index maps send `(p, q)` to `(0, q)` and `(0, q)` to `q`. -/
theorem bias_idx (g : S8192x3310.Idx → S1x3310.Idx) (f : S1x3310.Idx → S3310.Idx)
    (hg : ∀ i, ((g i) 1).val = (i 1).val) (hf : ∀ i, ((f i) 0).val = (i 1).val) (p : Fin 8192) (q : Fin 3310) :
    f (g (ix2 p q)) = ix1 q :=
  funext fun a => Fin.ext (by
    match a with
    | ⟨0, _⟩ => exact (hf _).trans (hg _))

/-- The rectifier's threshold, broadcast from the zero constant, is `0` everywhere. -/
theorem zero_word : (FloatOps.ofBits (F := Ideal) .f32 0x00000000#32 : EReal) = 0 := Ideal.ofBits_zero_f32

/-- The joined input at `(p, k)`: row `p` of `X` followed by zeros. -/
theorem joined_at (p : Fin 8192) (k : Fin 3310) :
    val_main_v2 (F := Ideal) x0 (ix2 p k) = padRow 3310 (fun k' : Fin 2500 => x0 (ix2 p k')) k := by
  unfold val_main_v2 padRow
  by_cases h : k.val < 2500
  · rw [dif_pos h]
    refine concatenate_pair_apply_left (t := S8192x3310) (s₁ := S8192x2500) (s₂ := S8192x810) (1 : Fin 2) _ _ _ (ix2 p k) rfl (ix2 p (⟨k.val, h⟩ : Fin 2500) : S8192x2500.Idx) fun b => ?_
    match b with
    | ⟨0, _⟩ => rfl
    | ⟨1, _⟩ => rfl
  · rw [dif_neg h]
    have hk : k.val - 2500 < 810 := by have := k.isLt; omega
    refine (concatenate_pair_apply_right (t := S8192x3310) (s₁ := S8192x2500) (s₂ := S8192x810) (1 : Fin 2) _ _ _ (ix2 p k) rfl rfl (ix2 p (⟨k.val - 2500, hk⟩ : Fin 810) : S8192x810.Idx) (fun b hb => ?_) ?_).trans ?_
    · match b with
      | ⟨0, _⟩ => rfl
      | ⟨1, _⟩ => exact absurd rfl hb
    · show k.val - 2500 + 2500 = k.val
      omega
    · rw [val_main_v1_apply, val_main_cst_apply]
      exact zero_word

/-! ## The layers, row by row -/

/-- A stage whose entry at `i` is a contraction of the activations `y` with the masked weight plus a broadcast bias `bv`
    has, at row `p`, the dense layer on row `p` of `y`: the contraction's operand indices at output `(p, q)` and
    position `k` are `(p, k)` and `(k, q)`. -/
theorem dense_row (y z bv : S8192x3310.Idx → EReal) (lidx : S8192x3310.Idx → Fin 3310 → S8192x3310.Idx)
    (ridx : S8192x3310.Idx → Fin 3310 → S3310x3310.Idx)
    (hz : ∀ i, z i = (∑ k : Fin 3310, y (lidx i k) * val_main_v0 (F := Ideal) x1 x3 (ridx i k)) + bv i)
    (hl0 : ∀ i k, (lidx i k 0).val = (i 0).val) (hl1 : ∀ i k, (lidx i k 1).val = k.val)
    (hr0 : ∀ i k, (ridx i k 0).val = k.val) (hr1 : ∀ i k, (ridx i k 1).val = (i 1).val)
    (hb : ∀ (p : Fin 8192) (q : Fin 3310), bv (ix2 p q) = x2 (ix1 q)) (p : Fin 8192) :
    (fun q => z (ix2 p q)) = dense (fun k => y (ix2 p k)) (wm x1 x3) (bb x2) := by
  funext q
  rw [hz, hb]
  unfold dense
  congr 1
  refine Finset.sum_congr rfl fun k _ => ?_
  rw [lidx_eq lidx hl0 hl1 p q k, ridx_eq ridx hr0 hr1 p q k]
  rfl

/-- A stage that is the entrywise maximum of `y` with a splat of zero has, at row `p`, the rectifier of row `p`. -/
theorem relu_row (y z c : S8192x3310.Idx → EReal) (hz : ∀ i, z i = max (y i) (c i)) (hc : ∀ i, c i = 0) (p : Fin 8192) :
    (fun q => z (ix2 p q)) = relu (fun q => y (ix2 p q)) := by
  funext q
  rw [hz, hc]
  rfl

/-- The bias broadcast of the first layer, at `(p, q)`. -/
theorem bias5 (p : Fin 8192) (q : Fin 3310) : val_main_v5 (F := Ideal) x2 (ix2 p q) = x2 (ix1 q) := by
  rw [val_main_v5_apply, val_main_v4_apply]
  exact congrArg x2 (bias_idx idx_main_v5 idx_main_v4 (fun _ => rfl) (fun _ => rfl) p q)
/-- The bias broadcast of the second layer, at `(p, q)`. -/
theorem bias10 (p : Fin 8192) (q : Fin 3310) : val_main_v10 (F := Ideal) x2 (ix2 p q) = x2 (ix1 q) := by
  rw [val_main_v10_apply, val_main_v9_apply]
  exact congrArg x2 (bias_idx idx_main_v10 idx_main_v9 (fun _ => rfl) (fun _ => rfl) p q)
/-- The bias broadcast of the third layer, at `(p, q)`. -/
theorem bias15 (p : Fin 8192) (q : Fin 3310) : val_main_v15 (F := Ideal) x2 (ix2 p q) = x2 (ix1 q) := by
  rw [val_main_v15_apply, val_main_v14_apply]
  exact congrArg x2 (bias_idx idx_main_v15 idx_main_v14 (fun _ => rfl) (fun _ => rfl) p q)
/-- The bias broadcast of the fourth layer, at `(p, q)`. -/
theorem bias20 (p : Fin 8192) (q : Fin 3310) : val_main_v20 (F := Ideal) x2 (ix2 p q) = x2 (ix1 q) := by
  rw [val_main_v20_apply, val_main_v19_apply]
  exact congrArg x2 (bias_idx idx_main_v20 idx_main_v19 (fun _ => rfl) (fun _ => rfl) p q)

/-- The three rectifier thresholds are zero everywhere. -/
theorem thr0 (i : S8192x3310.Idx) : val_main_call0_v0 (F := Ideal) i = 0 := by
  rw [val_main_call0_v0_apply, val_main_call0_cst_apply]; exact zero_word
theorem thr1 (i : S8192x3310.Idx) : val_main_call1_v0 (F := Ideal) i = 0 := by
  rw [val_main_call1_v0_apply, val_main_call1_cst_apply]; exact zero_word
theorem thr2 (i : S8192x3310.Idx) : val_main_call2_v0 (F := Ideal) i = 0 := by
  rw [val_main_call2_v0_apply, val_main_call2_cst_apply]; exact zero_word

/-- Row `p` of the first layer's output: the dense layer on the zero-padded row `p` of `X`. -/
theorem row6 (p : Fin 8192) : (fun q => val_main_v6 (F := Ideal) x0 x1 x2 x3 (ix2 p q))
    = dense (padRow 3310 fun k : Fin 2500 => x0 (ix2 p k)) (wm x1 x3) (bb x2) := by
  rw [dense_row x1 x3 x2 (val_main_v2 (F := Ideal) x0) (val_main_v6 (F := Ideal) x0 x1 x2 x3) (val_main_v5 (F := Ideal) x2)
    lidx_main_v3 ridx_main_v3 (fun i => by rw [val_main_v6_apply, val_main_v3_apply]; rfl)
    (fun _ _ => rfl) (fun _ _ => rfl) (fun _ _ => rfl) (fun _ _ => rfl) (bias5 x2) p]
  exact congrArg (fun r => dense r (wm x1 x3) (bb x2)) (funext fun k => joined_at x0 p k)

theorem row7 (p : Fin 8192) : (fun q => val_main_v7 (F := Ideal) x0 x1 x2 x3 (ix2 p q))
    = relu (fun q => val_main_v6 (F := Ideal) x0 x1 x2 x3 (ix2 p q)) :=
  relu_row _ _ (val_main_call0_v0 (F := Ideal)) (fun i => by rw [val_main_v7_apply]; rfl) thr0 p

theorem row11 (p : Fin 8192) : (fun q => val_main_v11 (F := Ideal) x0 x1 x2 x3 (ix2 p q))
    = dense (fun k => val_main_v7 (F := Ideal) x0 x1 x2 x3 (ix2 p k)) (wm x1 x3) (bb x2) :=
  dense_row x1 x3 x2 (val_main_v7 (F := Ideal) x0 x1 x2 x3) (val_main_v11 (F := Ideal) x0 x1 x2 x3) (val_main_v10 (F := Ideal) x2)
    lidx_main_v8 ridx_main_v8 (fun i => by rw [val_main_v11_apply, val_main_v8_apply]; rfl)
    (fun _ _ => rfl) (fun _ _ => rfl) (fun _ _ => rfl) (fun _ _ => rfl) (bias10 x2) p

theorem row12 (p : Fin 8192) : (fun q => val_main_v12 (F := Ideal) x0 x1 x2 x3 (ix2 p q))
    = relu (fun q => val_main_v11 (F := Ideal) x0 x1 x2 x3 (ix2 p q)) :=
  relu_row _ _ (val_main_call1_v0 (F := Ideal)) (fun i => by rw [val_main_v12_apply]; rfl) thr1 p

theorem row16 (p : Fin 8192) : (fun q => val_main_v16 (F := Ideal) x0 x1 x2 x3 (ix2 p q))
    = dense (fun k => val_main_v12 (F := Ideal) x0 x1 x2 x3 (ix2 p k)) (wm x1 x3) (bb x2) :=
  dense_row x1 x3 x2 (val_main_v12 (F := Ideal) x0 x1 x2 x3) (val_main_v16 (F := Ideal) x0 x1 x2 x3) (val_main_v15 (F := Ideal) x2)
    lidx_main_v13 ridx_main_v13 (fun i => by rw [val_main_v16_apply, val_main_v13_apply]; rfl)
    (fun _ _ => rfl) (fun _ _ => rfl) (fun _ _ => rfl) (fun _ _ => rfl) (bias15 x2) p

theorem row17 (p : Fin 8192) : (fun q => val_main_v17 (F := Ideal) x0 x1 x2 x3 (ix2 p q))
    = relu (fun q => val_main_v16 (F := Ideal) x0 x1 x2 x3 (ix2 p q)) :=
  relu_row _ _ (val_main_call2_v0 (F := Ideal)) (fun i => by rw [val_main_v17_apply]; rfl) thr2 p

theorem row21 (p : Fin 8192) : (fun q => val_main_v21 (F := Ideal) x0 x1 x2 x3 (ix2 p q))
    = dense (fun k => val_main_v17 (F := Ideal) x0 x1 x2 x3 (ix2 p k)) (wm x1 x3) (bb x2) :=
  dense_row x1 x3 x2 (val_main_v17 (F := Ideal) x0 x1 x2 x3) (val_main_v21 (F := Ideal) x0 x1 x2 x3) (val_main_v20 (F := Ideal) x2)
    lidx_main_v18 ridx_main_v18 (fun i => by rw [val_main_v21_apply, val_main_v18_apply]; rfl)
    (fun _ _ => rfl) (fun _ _ => rfl) (fun _ _ => rfl) (fun _ _ => rfl) (bias20 x2) p

/-! ## The reference's result is the network -/

/-- THE REFERENCE'S RESULT, as a whole array: the network of Spec.lean on `X`, the weight, its mask and the bias. -/
theorem ref_eq : val_main_v21 (F := Ideal) x0 x1 x2 x3 = mlpArr x0 x1 x3 x2 := by
  funext i
  obtain ⟨p, q, rfl⟩ : ∃ (p : Fin 8192) (q : Fin 3310), i = ix2 p q := ⟨i 0, i 1, eq_ix2 i⟩
  show _ = mlpRow (fun k => x0 (ix2 p k)) (wm x1 x3) (bb x2) q
  rw [← mlpRow_eq_padded]
  refine (congrFun (row21 x0 x1 x3 x2 p) q).trans ?_
  rw [row17, row16, row12, row11, row7, row6]

end Cert.ReferenceIdeal.RefValue

end
-- ==== Proof.KerBody.lean ====
/-
  What the kernel body stores, read at an index.

  The body's one store writes, for a block of 128 batch rows, four dense layers: the first contracts the block of `X`
  (128 × 2500, narrowed to bf16 — the identity on extended reals) with the first 2500 rows of the resident weight, the
  other three contract the rectified activations (128 × 3310) with the whole weight; each adds the bias row, broadcast
  over the 128 rows. A matrix product into a zero accumulator, read at `(p, q)`, is the sum over the contraction position
  `k` of the left operand at `(p, k)` times the right operand at `(k, q)`; so entry `(p, q)` of the stored value is feature
  `q` of the row-wise network of Spec.lean on row `p` of the block.
-/
import proofs.«173126_j82025285419746_1_alg».proof.Proof.Gen.KernelIdeal.Skeleton
import proofs.«173126_j82025285419746_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Cert.Mlp

/-! ## The two matrix products' operand indices -/

theorem lhs_first_0 (i : S128x3310.Idx) (q : dot_S128x2500_S2500x3310_S128x3310_1_0_0_1_n_n.contr.Idx) :
    (dot_S128x2500_S2500x3310_S128x3310_1_0_0_1_n_n.lhsIdx i q 0).val = (i 0).val := by
  unfold DotDims.lhsIdx
  rw [dif_neg (show ¬(0 : Fin S128x2500.rank) ∈ dot_S128x2500_S2500x3310_S128x3310_1_0_0_1_n_n.lhsBatch by decide), dif_pos (show (0 : Fin S128x2500.rank) ∈ dot_S128x2500_S2500x3310_S128x3310_1_0_0_1_n_n.lhsNonContracting by decide)]
  rfl
theorem lhs_first_1 (i : S128x3310.Idx) (q : dot_S128x2500_S2500x3310_S128x3310_1_0_0_1_n_n.contr.Idx) :
    (dot_S128x2500_S2500x3310_S128x3310_1_0_0_1_n_n.lhsIdx i q 1).val = (q ⟨0, by decide⟩).val :=
  dot_S128x2500_S2500x3310_S128x3310_1_0_0_1_n_n.lhsIdx_val_of_single rfl i q
theorem rhs_first_0 (i : S128x3310.Idx) (q : dot_S128x2500_S2500x3310_S128x3310_1_0_0_1_n_n.contr.Idx) :
    (dot_S128x2500_S2500x3310_S128x3310_1_0_0_1_n_n.rhsIdx i q 0).val = (q ⟨0, by decide⟩).val :=
  dot_S128x2500_S2500x3310_S128x3310_1_0_0_1_n_n.rhsIdx_val_of_single rfl i q
theorem rhs_first_1 (i : S128x3310.Idx) (q : dot_S128x2500_S2500x3310_S128x3310_1_0_0_1_n_n.contr.Idx) :
    (dot_S128x2500_S2500x3310_S128x3310_1_0_0_1_n_n.rhsIdx i q 1).val = (i 1).val := by
  unfold DotDims.rhsIdx
  rw [dif_neg (show ¬(1 : Fin S2500x3310.rank) ∈ dot_S128x2500_S2500x3310_S128x3310_1_0_0_1_n_n.rhsBatch by decide), dif_pos (show (1 : Fin S2500x3310.rank) ∈ dot_S128x2500_S2500x3310_S128x3310_1_0_0_1_n_n.rhsNonContracting by decide)]
  rfl

theorem lhs_next_0 (i : S128x3310.Idx) (q : dot_S128x3310_S3310x3310_S128x3310_1_0_0_1_n_n.contr.Idx) :
    (dot_S128x3310_S3310x3310_S128x3310_1_0_0_1_n_n.lhsIdx i q 0).val = (i 0).val := by
  unfold DotDims.lhsIdx
  rw [dif_neg (show ¬(0 : Fin S128x3310.rank) ∈ dot_S128x3310_S3310x3310_S128x3310_1_0_0_1_n_n.lhsBatch by decide), dif_pos (show (0 : Fin S128x3310.rank) ∈ dot_S128x3310_S3310x3310_S128x3310_1_0_0_1_n_n.lhsNonContracting by decide)]
  rfl
theorem lhs_next_1 (i : S128x3310.Idx) (q : dot_S128x3310_S3310x3310_S128x3310_1_0_0_1_n_n.contr.Idx) :
    (dot_S128x3310_S3310x3310_S128x3310_1_0_0_1_n_n.lhsIdx i q 1).val = (q ⟨0, by decide⟩).val :=
  dot_S128x3310_S3310x3310_S128x3310_1_0_0_1_n_n.lhsIdx_val_of_single rfl i q
theorem rhs_next_0 (i : S128x3310.Idx) (q : dot_S128x3310_S3310x3310_S128x3310_1_0_0_1_n_n.contr.Idx) :
    (dot_S128x3310_S3310x3310_S128x3310_1_0_0_1_n_n.rhsIdx i q 0).val = (q ⟨0, by decide⟩).val :=
  dot_S128x3310_S3310x3310_S128x3310_1_0_0_1_n_n.rhsIdx_val_of_single rfl i q
theorem rhs_next_1 (i : S128x3310.Idx) (q : dot_S128x3310_S3310x3310_S128x3310_1_0_0_1_n_n.contr.Idx) :
    (dot_S128x3310_S3310x3310_S128x3310_1_0_0_1_n_n.rhsIdx i q 1).val = (i 1).val := by
  unfold DotDims.rhsIdx
  rw [dif_neg (show ¬(1 : Fin S3310x3310.rank) ∈ dot_S128x3310_S3310x3310_S128x3310_1_0_0_1_n_n.rhsBatch by decide), dif_pos (show (1 : Fin S3310x3310.rank) ∈ dot_S128x3310_S3310x3310_S128x3310_1_0_0_1_n_n.rhsNonContracting by decide)]
  rfl

/-! ## The two matrix products at an index -/

/-- The first layer's product (128 × 2500 by 2500 × 3310) into the zero accumulator, at `(p, q)`. -/
theorem matmul_first_at (l : FVec Ideal S128x2500 .bf16) (r : FVec Ideal S2500x3310 .bf16) (p : Fin 128) (q : Fin 3310) :
    FloatOps.matmul dot_S128x2500_S2500x3310_S128x3310_1_0_0_1_n_n none l r (constant S128x3310 .f32 0x00000000#32) (ix2 p q)
      = ∑ k : Fin 2500, l (ix2 p k) * r (ix2 k q) := by
  rw [Ideal.matmul_constant_zero_apply, ← Equiv.sum_comp (contrEquiv1 dot_S128x2500_S2500x3310_S128x3310_1_0_0_1_n_n 2500 rfl rfl).symm]
  refine Finset.sum_congr rfl fun k _ => ?_
  have hk := contrEquiv1_symm_val dot_S128x2500_S2500x3310_S128x3310_1_0_0_1_n_n 2500 rfl rfl k
  have el : dot_S128x2500_S2500x3310_S128x3310_1_0_0_1_n_n.lhsIdx (ix2 p q) ((contrEquiv1 dot_S128x2500_S2500x3310_S128x3310_1_0_0_1_n_n 2500 rfl rfl).symm k) = ix2 p k := funext fun a => Fin.ext (by
    match a with
    | ⟨0, _⟩ => exact lhs_first_0 _ _
    | ⟨1, _⟩ => exact (lhs_first_1 _ _).trans hk)
  have er : dot_S128x2500_S2500x3310_S128x3310_1_0_0_1_n_n.rhsIdx (ix2 p q) ((contrEquiv1 dot_S128x2500_S2500x3310_S128x3310_1_0_0_1_n_n 2500 rfl rfl).symm k) = ix2 k q := funext fun a => Fin.ext (by
    match a with
    | ⟨0, _⟩ => exact (rhs_first_0 _ _).trans hk
    | ⟨1, _⟩ => exact rhs_first_1 _ _)
  rw [el, er]

/-- The later layers' product (128 × 3310 by 3310 × 3310) into the zero accumulator, at `(p, q)`. -/
theorem matmul_next_at (l : FVec Ideal S128x3310 .bf16) (r : FVec Ideal S3310x3310 .bf16) (p : Fin 128) (q : Fin 3310) :
    FloatOps.matmul dot_S128x3310_S3310x3310_S128x3310_1_0_0_1_n_n none l r (constant S128x3310 .f32 0x00000000#32) (ix2 p q)
      = ∑ k : Fin 3310, l (ix2 p k) * r (ix2 k q) := by
  rw [Ideal.matmul_constant_zero_apply, ← Equiv.sum_comp (contrEquiv1 dot_S128x3310_S3310x3310_S128x3310_1_0_0_1_n_n 3310 rfl rfl).symm]
  refine Finset.sum_congr rfl fun k _ => ?_
  have hk := contrEquiv1_symm_val dot_S128x3310_S3310x3310_S128x3310_1_0_0_1_n_n 3310 rfl rfl k
  have el : dot_S128x3310_S3310x3310_S128x3310_1_0_0_1_n_n.lhsIdx (ix2 p q) ((contrEquiv1 dot_S128x3310_S3310x3310_S128x3310_1_0_0_1_n_n 3310 rfl rfl).symm k) = ix2 p k := funext fun a => Fin.ext (by
    match a with
    | ⟨0, _⟩ => exact lhs_next_0 _ _
    | ⟨1, _⟩ => exact (lhs_next_1 _ _).trans hk)
  have er : dot_S128x3310_S3310x3310_S128x3310_1_0_0_1_n_n.rhsIdx (ix2 p q) ((contrEquiv1 dot_S128x3310_S3310x3310_S128x3310_1_0_0_1_n_n 3310 rfl rfl).symm k) = ix2 k q := funext fun a => Fin.ext (by
    match a with
    | ⟨0, _⟩ => exact (rhs_next_0 _ _).trans hk
    | ⟨1, _⟩ => exact rhs_next_1 _ _)
  rw [el, er]

/-! ## The bias row over the block -/

/-- The bias row (1 × 3310) broadcast over the 128 rows, at `(p, q)`, is the row at `(0, q)`. -/
theorem bias_at (v0 : Vec Ideal S1x3310 .f32) (p : Fin 128) (q : Fin 3310) :
    broadcastTo S128x3310 (shapeCast S1x3310 v0 shapeCasts_S1x3310_S1x3310) broadcasts_S1x3310_S128x3310 (ix2 p q)
      = v0 (ix2 0 q) := by
  rw [shapeCast_self]
  refine broadcastTo_apply v0 broadcasts_S1x3310_S128x3310 (ix2 p q) (ix2 0 q) fun a => ?_
  match a with
  | ⟨0, _⟩ => show (0 : Nat) = if (1 : Nat) = 1 then 0 else _; rw [if_pos rfl]
  | ⟨1, _⟩ => show q.val = if (3310 : Nat) = 1 then 0 else _; rw [if_neg (by decide)]; rfl

/-! ## The body's layers as functions of vectors -/

/-- The first layer as the body computes it. -/
def firstLayer (v2 : Vec Ideal S128x2500 .f32) (v4 : Vec Ideal S2500x3310 .bf16) (v0 : Vec Ideal S1x3310 .f32) : FVec Ideal S128x3310 .f32 :=
  addf (matmul dot_S128x2500_S2500x3310_S128x3310_1_0_0_1_n_n none (truncf .bf16 v2 bitsLt_bf16_f32) (shapeCast S2500x3310 v4 shapeCasts_S2500x3310_S2500x3310 : FVec Ideal S2500x3310 .bf16) (constant S128x3310 .f32 0x00000000#32))
    (broadcastTo S128x3310 (shapeCast S1x3310 v0 shapeCasts_S1x3310_S1x3310) broadcasts_S1x3310_S128x3310)

/-- A later layer as the body computes it, from the previous layer's output `h`. -/
def nextLayer (h : FVec Ideal S128x3310 .f32) (w : Vec Ideal S3310x3310 .bf16) (v0 : Vec Ideal S1x3310 .f32) : FVec Ideal S128x3310 .f32 :=
  addf (matmul dot_S128x3310_S3310x3310_S128x3310_1_0_0_1_n_n none (truncf .bf16 (maximumf h (broadcast S128x3310 (Scalar.ofBits (F := Ideal) .f32 0x00000000#32))) bitsLt_bf16_f32) (shapeCast S3310x3310 w shapeCasts_S3310x3310_S3310x3310 : FVec Ideal S3310x3310 .bf16) (constant S128x3310 .f32 0x00000000#32))
    (broadcastTo S128x3310 (shapeCast S1x3310 v0 shapeCasts_S1x3310_S1x3310) broadcasts_S1x3310_S128x3310)

/-- The stored value is the four layers composed. -/
theorem pay_eq (v0 : Vec Ideal S1x3310 .f32) (v2 : Vec Ideal S128x2500 .f32) (v4 : Vec Ideal S2500x3310 .bf16) (v12 v20 v28 : Vec Ideal S3310x3310 .bf16) :
    k0_pay1 (F := Ideal) v0 v2 v4 v12 v20 v28 = nextLayer (nextLayer (nextLayer (firstLayer v2 v4 v0) v12 v0) v20 v0) v28 v0 := rfl

/-- Row `p` of the first layer's output is the dense layer on row `p` of the input block. -/
theorem firstLayer_row (v2 : Vec Ideal S128x2500 .f32) (v4 : Vec Ideal S2500x3310 .bf16) (v0 : Vec Ideal S1x3310 .f32) (p : Fin 128) :
    (fun q => firstLayer v2 v4 v0 (ix2 p q)) = dense (fun k => v2 (ix2 p k)) (fun k j => v4 (ix2 k j)) (fun j => v0 (ix2 0 j)) := by
  funext q
  unfold firstLayer dense
  rw [addf_apply, bias_at, shapeCast_self]
  exact congrArg (· + v0 (ix2 0 q)) (matmul_first_at _ _ p q)

/-- Row `p` of a later layer's output is the dense layer on the rectified row `p` of its input. -/
theorem nextLayer_row (h : FVec Ideal S128x3310 .f32) (w : Vec Ideal S3310x3310 .bf16) (v0 : Vec Ideal S1x3310 .f32) (p : Fin 128) :
    (fun q => nextLayer h w v0 (ix2 p q)) = dense (relu fun k => h (ix2 p k)) (fun k j => w (ix2 k j)) (fun j => v0 (ix2 0 j)) := by
  funext q
  unfold nextLayer dense
  rw [addf_apply, bias_at, shapeCast_self]
  refine congrArg (· + v0 (ix2 0 q)) ((matmul_next_at _ _ p q).trans ?_)
  refine Finset.sum_congr rfl fun k _ => ?_
  show max (h (ix2 p k)) (Ideal.ofBits .f32 0x00000000#32) * _ = max (h (ix2 p k)) 0 * _
  rw [Ideal.ofBits_zero_f32]

/-- THE STORED VALUE AT `(p, q)`: feature `q` of the four layers on row `p` of the input block, each layer with the weight
    block the body loaded for it. -/
theorem pay_at (v0 : Vec Ideal S1x3310 .f32) (v2 : Vec Ideal S128x2500 .f32) (v4 : Vec Ideal S2500x3310 .bf16) (v12 v20 v28 : Vec Ideal S3310x3310 .bf16)
    (p : Fin 128) (q : Fin 3310) :
    k0_pay1 (F := Ideal) v0 v2 v4 v12 v20 v28 (ix2 p q)
      = dense (relu (dense (relu (dense (relu (dense (fun k => v2 (ix2 p k)) (fun k j => v4 (ix2 k j)) (fun j => v0 (ix2 0 j))))
          (fun k j => v12 (ix2 k j)) (fun j => v0 (ix2 0 j)))) (fun k j => v20 (ix2 k j)) (fun j => v0 (ix2 0 j))))
          (fun k j => v28 (ix2 k j)) (fun j => v0 (ix2 0 j)) q := by
  rw [pay_eq]
  refine (congrFun (nextLayer_row _ v28 v0 p) q).trans ?_
  rw [nextLayer_row, nextLayer_row, firstLayer_row]

end Cert.KernelIdeal.Body

end
-- ==== Proof.KerValue.lean ====
/-
  The kernel's result array is the network of Spec.lean.

  The grid has 64 points; point `t` stages rows `128 t … 128 t + 127` of `X`, the whole masked weight (computed once on
  the host as the entrywise product of the weight and its mask, narrowed to bf16 — the identity on extended reals) and
  the bias as one row (the host's reshape of the bias vector), and writes back rows `128 t … 128 t + 127` of the result.
  By KerBody.lean entry `(p, q)` of what point `t` stores is feature `q` of the row-wise network on row `p` of its block of
  `X`, that is on row `128 t + p` of `X`: exactly entry `(128 t + p, q)` of the network on the whole batch. The body uses
  the weight's first 2500 rows in the first layer because it loads the top 2500 × 3310 rectangle of the staged weight.
  The 64 row blocks cover the result array (row `r` lies in block `r / 128`), so the array ends holding the network.
-/
import proofs.«173126_j82025285419746_1_alg».proof.Proof.Gen.KernelIdeal.Value
import proofs.«173126_j82025285419746_1_alg».proof.Proof.KerBody
import proofs.«173126_j82025285419746_1_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KerValue

open Cert.KernelIdeal Cert.KernelIdeal.Gen Cert.KernelIdeal.Body Idealize.ShloMosaic Idealize.ShloMosaic.TcCoe
open Idealize.ShloMosaic.ValueIdx Idealize.SL.Sem Idealize.ShloMosaic.StableHlo
open Idealize.ShloMosaic.Pipeline (Dat)
open Cert.Mlp

variable (m : (ℓ : Loc nD τ sig) → Buf (Elt Ideal) ℓ) (ρ : Dev nD → PrngReg)

theorem hz : (![0, 0] : Fin 2 → Nat) = fun _ => 0 := funext fun a => by fin_cases a <;> rfl

/-! ## The argument arrays and the result, at their literal types -/

abbrev argX (c : Dev nD) : S8192x2500.Idx → EReal := m ((c : Thread nD τ).loc main_arg0)
abbrev argW (c : Dev nD) : S3310x3310.Idx → EReal := m ((c : Thread nD τ).loc main_arg1)
abbrev argB (c : Dev nD) : S3310.Idx → EReal := m ((c : Thread nD τ).loc main_arg2)
abbrev argM (c : Dev nD) : S3310x3310.Idx → EReal := m ((c : Thread nD τ).loc main_arg3)

/-- The masked weight, entry by entry. -/
abbrev wm (c : Dev nD) : Fin 3310 → Fin 3310 → EReal := fun k j => argW m c (ix2 k j) * argM m c (ix2 k j)
/-- The bias, entry by entry. -/
abbrev bb (c : Dev nD) : Fin 3310 → EReal := fun j => argB m c (ix1 j)

/-- What the result array ends holding: the network on the whole batch. -/
abbrev result (c : Dev nD) : S8192x3310.Idx → EReal := mlpArr (argX m c) (argW m c) (argM m c) (argB m c)

theorem result_at (c : Dev nD) (r : Fin 8192) (q : Fin 3310) :
    result m c (ix2 r q) = mlpRow (fun k => argX m c (ix2 r k)) (wm m c) (bb m c) q := rfl

/-! ## What the body stores, over literal blocks -/

/-- The top 2500 × 3310 rectangle of the staged weight, read at `(k, j)`. -/
theorem top_at (x1 : Vec Ideal S3310x3310 .bf16) (k : Fin 2500) (j : Fin 3310) :
    View.ld x1 r0_2 (ix2 k j) = x1 (ix2 (Fin.castLE (by omega) k) j) := by
  show x1 (r0_2.idx (ix2 k j)) = _
  refine congrArg x1 (funext fun a => Fin.ext ?_)
  match a with
  | ⟨0, _⟩ => show 0 + 1 * k.val = k.val; omega
  | ⟨1, _⟩ => show 0 + 1 * j.val = j.val; omega

/-- Entry `(p, q)` of what the body leaves in the output block, from the three staged blocks: feature `q` of the row-wise
    network on row `p` of the block of `X`. -/
theorem stored_at (x0 : Vec Ideal S128x2500 .f32) (x1 : Vec Ideal S3310x3310 .bf16) (x2 : Vec Ideal S1x3310 .f32)
    (p : Fin 128) (q : Fin 3310) :
    out0_3 x0 x1 x2 (ix2 p q) = mlpRow (fun k => x0 (ix2 p k)) (fun k j => x1 (ix2 k j)) (fun j => x2 (ix2 0 j)) q := by
  unfold out0_3
  rw [View.canon_unit_zero hz]
  simp only [View.ld_unit_zero (S := S128x2500) hz, View.ld_unit_zero (S := S3310x3310) hz, View.ld_unit_zero (S := S1x3310) hz]
  rw [pay_at]
  unfold mlpRow
  have e : (fun (k : Fin 2500) (j : Fin 3310) => View.ld x1 r0_2 (ix2 k j)) = topRows (by omega) (fun k j => x1 (ix2 k j)) :=
    funext fun k => funext fun j => top_at x1 k j
  rw [e]

/-! ## The arrays the region finds -/

/-- The staged weight's array: the host's product of the weight and its mask. -/
theorem weight_found (c : Dev nD) (k j : Fin 3310) :
    (V m c main_v1 : S3310x3310.Idx → EReal) (ix2 k j) = wm m c k j := by
  have e : (V m c main_v1 : S3310x3310.Idx → EReal)
      = (truncf .bf16 (mulf (m ((c : Thread nD τ).loc main_arg1) : FVec Ideal S3310x3310 .f32) (m ((c : Thread nD τ).loc main_arg3))) bitsLt_bf16_f32 : FVec Ideal S3310x3310 .bf16) := by
    dsimp only [Gen.V, Gen.hostOps0]; after_results
  rw [e]
  rfl

/-- The staged bias row's array: the host's reshape of the bias vector to one row. -/
theorem bias_found (c : Dev nD) (j : Fin 3310) :
    (V m c main_v2 : S1x3310.Idx → EReal) (ix2 0 j) = bb m c j := by
  have e : (V m c main_v2 : S1x3310.Idx → EReal)
      = shapeCast S1x3310 (m ((c : Thread nD τ).loc main_arg2) : S3310.Idx → EReal) shapeCasts_S3310_S1x3310 := by
    dsimp only [Gen.V, Gen.hostOps0]; after_results; rfl
  rw [e]
  refine shapeCast_apply _ _ (ix2 0 j) (ix1 j) ?_
  rw [Shape.rowMajor_val_one, Shape.rowMajor_val_two]
  show j.val = 0 * 3310 + j.val
  omega

/-! ## The windows' blocks -/

/-- The printed index maps, decided over the 64 points: `X` and the result move with the point along the batch axis, the
    weight and the bias stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- Row `p` of the block of `X` at point `t` is row `128 t + p` of `X`. -/
theorem xblk_at (c : Dev nD) (t : Fin cfg0.N) (p : Fin 128) (k : Fin 2500) (hr : 128 * t.val + p.val < 8192) :
    (iblk m c 0 t : Vec Ideal S128x2500 .f32) (ix2 p k) = argX m c (ix2 (⟨128 * t.val + p.val, hr⟩ : Fin 8192) k) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 128 + 1 * p.val = 128 * t.val + p.val; rw [e0]; omega
  | ⟨1, _⟩ => show win0_0.index t (1 : Fin 2) * 2500 + 1 * k.val = k.val; rw [e1]; omega

/-- The staged weight at every point is the masked weight. -/
theorem wblk_at (c : Dev nD) (t : Fin cfg0.N) (k j : Fin 3310) :
    (iblk m c 1 t : Vec Ideal S3310x3310 .bf16) (ix2 k j) = wm m c k j := by
  obtain ⟨-, -, e2, e3, -⟩ := idx_facts t
  unfold iblk
  rw [View.read_apply]
  show (V m c main_v1 : S3310x3310.Idx → EReal) _ = _
  refine (congrArg (V m c main_v1 : S3310x3310.Idx → EReal) (funext fun a => Fin.ext ?_)).trans (weight_found m c k j)
  match a with
  | ⟨0, _⟩ => show win0_1.index t (0 : Fin 2) * 3310 + 1 * k.val = k.val; rw [e2]; omega
  | ⟨1, _⟩ => show win0_1.index t (1 : Fin 2) * 3310 + 1 * j.val = j.val; rw [e3]; omega

/-- The staged bias row at every point is the bias. -/
theorem bblk_at (c : Dev nD) (t : Fin cfg0.N) (j : Fin 3310) :
    (iblk m c 2 t : Vec Ideal S1x3310 .f32) (ix2 0 j) = bb m c j := by
  obtain ⟨-, -, -, -, e4, e5, -⟩ := idx_facts t
  unfold iblk
  rw [View.read_apply]
  show (V m c main_v2 : S1x3310.Idx → EReal) _ = _
  refine (congrArg (V m c main_v2 : S1x3310.Idx → EReal) (funext fun a => Fin.ext ?_)).trans (bias_found m c j)
  match a with
  | ⟨0, _⟩ => show win0_2.index t (0 : Fin 2) * 1 + 1 * 0 = 0; rw [e4]
  | ⟨1, _⟩ => show win0_2.index t (1 : Fin 2) * 3310 + 1 * j.val = j.val; rw [e5]; omega

/-! ## What each point writes back, and the whole array -/

/-- WHAT POINT `t` WRITES BACK is block `t` of the network on the whole batch. -/
theorem flushed_eq (c : Dev nD) (t : Fin cfg0.N) :
    (dats m 0 c).flushed 3 t = ((cfg0.win 3).blk t).view.read (Elt Ideal) (result m c) := by
  rw [Cert.KernelIdeal.Value.flushed3]
  obtain ⟨-, -, -, -, -, -, e6, e7⟩ := idx_facts t
  have ht := point_lt t
  funext y
  have h0 : (y 0).val < 128 := (y 0).isLt
  have h1 : (y 1).val < 3310 := (y 1).isLt
  have hr : 128 * t.val + (y 0).val < 8192 := by omega
  have hy : (cfg0.win 3).xinj (grid0.coords t) y = ix2 (⟨(y 0).val, h0⟩ : Fin 128) (⟨(y 1).val, h1⟩ : Fin 3310) :=
    funext fun a => Fin.ext (by
      match a with
      | ⟨0, _⟩ => rfl
      | ⟨1, _⟩ => rfl)
  have hemb : ((cfg0.win 3).blk t).view.emb y = ix2 (⟨128 * t.val + (y 0).val, hr⟩ : Fin 8192) (⟨(y 1).val, h1⟩ : Fin 3310) :=
    funext fun a => Fin.ext (by
      match a with
      | ⟨0, _⟩ => show win0_3.index t (0 : Fin 2) * 128 + 1 * (y 0).val = 128 * t.val + (y 0).val; rw [e6]; omega
      | ⟨1, _⟩ => show win0_3.index t (1 : Fin 2) * 3310 + 1 * (y 1).val = (y 1).val; rw [e7]; omega)
  show out0_3 (iblk m c 0 t) (iblk m c 1 t) (iblk m c 2 t) ((cfg0.win 3).xinj (grid0.coords t) y)
    = result m c (((cfg0.win 3).blk t).view.emb y)
  rw [hemb, result_at]
  refine ((congrArg (out0_3 (iblk m c 0 t) (iblk m c 1 t) (iblk m c 2 t)) hy).trans
    (stored_at (iblk m c 0 t) (iblk m c 1 t) (iblk m c 2 t) ⟨(y 0).val, h0⟩ ⟨(y 1).val, h1⟩)).trans ?_
  have ex : (fun k : Fin 2500 => (iblk m c 0 t : Vec Ideal S128x2500 .f32) (ix2 (⟨(y 0).val, h0⟩ : Fin 128) k))
      = fun k => argX m c (ix2 (⟨128 * t.val + (y 0).val, hr⟩ : Fin 8192) k) :=
    funext fun k => xblk_at m c t ⟨(y 0).val, h0⟩ k hr
  have ew : (fun k j : Fin 3310 => (iblk m c 1 t : Vec Ideal S3310x3310 .bf16) (ix2 k j)) = wm m c :=
    funext fun k => funext fun j => wblk_at m c t k j
  have eb : (fun j : Fin 3310 => (iblk m c 2 t : Vec Ideal S1x3310 .f32) (ix2 0 j)) = bb m c :=
    funext fun j => bblk_at m c t j
  rw [ex, ew, eb]

/-- An index of the result is in point `t`'s block iff each coordinate is in the block's range on its axis. -/
theorem mem_blk (t : Fin cfg0.N) (i : S8192x3310.Idx) :
    i ∈ ((cfg0.win 3).blk t).view.set ↔ ∀ a : Fin 2, win0_3.index t a * S128x3310.size a ≤ (i a).val ∧ (i a).val < win0_3.index t a * S128x3310.size a + S128x3310.size a := by
  show i ∈ ((View.whole main_v3).slice (win0_3.rect t)).set ↔ _
  rw [View.set_slice_whole, Rect.mem_set_unit]
  exact Iff.rfl

/-- Every index of the result lies in the block of the point that holds its row: row `r` in block `r / 128`. -/
theorem covered (i : S8192x3310.Idx) : ∃ t : Fin cfg0.N, (cfg0.win 3).flush t = true ∧ i ∈ ((cfg0.win 3).blk t).view.set := by
  have hi0 : (i 0).val < 8192 := (i 0).isLt
  have hi1 : (i 1).val < 3310 := (i 1).isLt
  have hN : cfg0.N = 64 := N_0
  have hlt : (i 0).val / 128 < cfg0.N := by rw [hN]; omega
  obtain ⟨-, -, -, -, -, -, e6, e7⟩ := idx_facts ⟨(i 0).val / 128, hlt⟩
  refine ⟨⟨(i 0).val / 128, hlt⟩, flush0_3 _, ?_⟩
  rw [mem_blk]
  intro a
  match a with
  | ⟨0, _⟩ =>
    show win0_3.index ⟨(i 0).val / 128, hlt⟩ (0 : Fin 2) * 128 ≤ (i 0).val ∧ (i 0).val < win0_3.index ⟨(i 0).val / 128, hlt⟩ (0 : Fin 2) * 128 + 128
    rw [e6]
    show (i 0).val / 128 * 128 ≤ (i 0).val ∧ (i 0).val < (i 0).val / 128 * 128 + 128
    omega
  | ⟨1, _⟩ =>
    show win0_3.index ⟨(i 0).val / 128, hlt⟩ (1 : Fin 2) * 3310 ≤ (i 1).val ∧ (i 1).val < win0_3.index ⟨(i 0).val / 128, hlt⟩ (1 : Fin 2) * 3310 + 3310
    rw [e7]
    omega

/-- THE RESULT ARRAY after the run is the network on the whole batch. -/
theorem final (c : Dev nD) : (dats m 0 c).arrAt 3 cfg0.N = result m c :=
  (dats m 0 c).arrAt_eq_of_cover 3 (result m c) (fun t _ => flushed_eq m c t) covered

/-- The kernel's run, read: the result array at the network of the argument arrays, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.KerValue

end
-- ==== Proof.lean ====
/-
  The certificate: a four-layer perceptron kernel against its reference, over the extended reals.

  Both programs compute, for every batch row `x` of 2500 features, four dense layers `h ↦ h · Wm + b` with one masked
  weight `Wm = W ∘ M` (3310 × 3310) and one bias, rectified by `max · 0` between layers (Proof/Spec.lean). The reference
  pads each row with 810 zeros and uses the whole weight in the first layer; the kernel contracts the row with the
  weight's first 2500 rows, tiles the batch into 64 blocks of 128 rows, and narrows its matrix operands to bf16, which is
  the identity on extended reals. The two first layers agree because a zero feature contributes `0 · y = 0` to the
  contraction sum whatever `y` is, so the finiteness of the inputs is never used. The reference's result is the network
  (Proof/RefValue.lean, over the generated reading of the reference's operations), what the body stores is the network on
  the block's rows (Proof/KerBody.lean), and the 64 blocks written back cover the result array (Proof/KerValue.lean).
  The three frames are the generated ones; no operation was rewritten by the idealization, so its statement is `True`.
-/
import proofs.«173126_j82025285419746_1_alg».proof.Defs
import proofs.«173126_j82025285419746_1_alg».proof.Proof.Gen.Kernel
import proofs.«173126_j82025285419746_1_alg».proof.Proof.Gen.Kernel.Skeleton
import proofs.«173126_j82025285419746_1_alg».proof.Proof.Gen.Kernel.Launch
import proofs.«173126_j82025285419746_1_alg».proof.Proof.Gen.Kernel.Points
import proofs.«173126_j82025285419746_1_alg».proof.Proof.Gen.Kernel.Frame
import proofs.«173126_j82025285419746_1_alg».proof.Proof.Gen.KernelIdeal
import proofs.«173126_j82025285419746_1_alg».proof.Proof.Gen.KernelIdeal.Skeleton
import proofs.«173126_j82025285419746_1_alg».proof.Proof.Gen.KernelIdeal.Launch
import proofs.«173126_j82025285419746_1_alg».proof.Proof.Gen.KernelIdeal.Points
import proofs.«173126_j82025285419746_1_alg».proof.Proof.Gen.KernelIdeal.Frame
import proofs.«173126_j82025285419746_1_alg».proof.Proof.Gen.ReferenceIdeal
import proofs.«173126_j82025285419746_1_alg».proof.Proof.Gen.Pre_finite_inputs
import proofs.«173126_j82025285419746_1_alg».proof.Proof.Gen.KernelIdeal.Value
import proofs.«173126_j82025285419746_1_alg».proof.Proof.Gen.ReferenceIdeal.Run
import proofs.«173126_j82025285419746_1_alg».proof.Proof.Gen.ReferenceIdeal.Read
import proofs.«173126_j82025285419746_1_alg».proof.Proof.Spec
import proofs.«173126_j82025285419746_1_alg».proof.Proof.RefValue
import proofs.«173126_j82025285419746_1_alg».proof.Proof.KerBody
import proofs.«173126_j82025285419746_1_alg».proof.Proof.KerValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its generated run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments both programs end with the network of the arguments in their result
    arrays: the kernel by its run read block by block, the reference by its operations read index by index. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v21_eq _ _ _ _).trans (Cert.ReferenceIdeal.RefValue.ref_eq _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
